-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S64x128 : Shape := ⟨2, ![64, 128]⟩
abbrev S64 : Shape := ⟨1, ![64]⟩
abbrev S16x64 : Shape := ⟨2, ![16, 64]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16x64 .f32) (main_arg6 : FVec F S16x64 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg5
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S16x64 .f32 := Host.absf main_arg6
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S64x128 .f32) (main_arg3 : FVec F S64x128 .f32) (main_arg4 : FVec F S64 .f32) (main_arg5 : FVec F S16x64 .f32) (main_arg6 : FVec F S16x64 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S64x128 : Shape := ⟨2, ![64, 128]⟩
abbrev S64 : Shape := ⟨1, ![64]⟩
abbrev S16x64 : Shape := ⟨2, ![16, 64]⟩
abbrev S16 : Shape := ⟨1, ![16]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x64 : Shape := ⟨2, ![128, 64]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S640000x64 : Shape := ⟨2, ![640000, 64]⟩
abbrev S64x16 : Shape := ⟨2, ![64, 16]⟩
abbrev S1x16 : Shape := ⟨2, ![1, 16]⟩
abbrev S100000x16 : Shape := ⟨2, ![100000, 16]⟩
abbrev S5000x16 : Shape := ⟨2, ![5000, 16]⟩
abbrev S5000 : Shape := ⟨1, ![5000]⟩
abbrev S5000x1 : Shape := ⟨2, ![5000, 1]⟩

abbrev nBuf : Space → Nat
  | .hbm => 56
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S64x128, .f32⟩
  | .hbm, ⟨3, _⟩ => ⟨S64x128, .f32⟩
  | .hbm, ⟨4, _⟩ => ⟨S64, .f32⟩
  | .hbm, ⟨5, _⟩ => ⟨S16x64, .f32⟩
  | .hbm, ⟨6, _⟩ => ⟨S16x64, .f32⟩
  | .hbm, ⟨7, _⟩ => ⟨S16, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S100000x128, .bf16⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .bf16⟩
  | .hbm, ⟨22, _⟩ => ⟨S640000x128, .f32⟩
  | .hbm, ⟨23, _⟩ => ⟨S_, .f32⟩
  | .hbm, ⟨24, _⟩ => ⟨S100000x128, .f32⟩
  | .hbm, ⟨25, _⟩ => ⟨S640000x1, .i32⟩
  | .hbm, ⟨26, _⟩ => ⟨S100000x128, .f32⟩
  | .hbm, ⟨27, _⟩ => ⟨S100000x128, .bf16⟩
  | .hbm, ⟨28, _⟩ => ⟨S128x64, .f32⟩
  | .hbm, ⟨29, _⟩ => ⟨S128x64, .bf16⟩
  | .hbm, ⟨30, _⟩ => ⟨S128x64, .f32⟩
  | .hbm, ⟨31, _⟩ => ⟨S128x64, .bf16⟩
  | .hbm, ⟨32, _⟩ => ⟨S1x64, .f32⟩
  | .hbm, ⟨33, _⟩ => ⟨S100000x64, .f32⟩
  | .hbm, ⟨34, _⟩ => ⟨S100000x64, .bf16⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x64, .bf16⟩
  | .hbm, ⟨44, _⟩ => ⟨S640000x64, .f32⟩
  | .hbm, ⟨45, _⟩ => ⟨S_, .f32⟩
  | .hbm, ⟨46, _⟩ => ⟨S100000x64, .f32⟩
  | .hbm, ⟨47, _⟩ => ⟨S640000x1, .i32⟩
  | .hbm, ⟨48, _⟩ => ⟨S100000x64, .f32⟩
  | .hbm, ⟨49, _⟩ => ⟨S100000x64, .bf16⟩
  | .hbm, ⟨50, _⟩ => ⟨S64x16, .f32⟩
  | .hbm, ⟨51, _⟩ => ⟨S64x16, .bf16⟩
  | .hbm, ⟨52, _⟩ => ⟨S64x16, .f32⟩
  | .hbm, ⟨53, _⟩ => ⟨S64x16, .bf16⟩
  | .hbm, ⟨54, _⟩ => ⟨S1x16, .f32⟩
  | .hbm, ⟨55, _⟩ => ⟨S100000x16, .f32⟩
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S128x64, .bf16⟩
  | .local _ .vmem, ⟨5, _⟩ => ⟨S128x64, .bf16⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .bf16⟩
  | .local _ .vmem, ⟨12, _⟩ => ⟨S5000x64, .bf16⟩
  | .local _ .vmem, ⟨13, _⟩ => ⟨S64x16, .bf16⟩
  | .local _ .vmem, ⟨14, _⟩ => ⟨S64x16, .bf16⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x16 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  transposes_S16x64_S64x16_1_0 : S16x64.Transposes [1, 0] S64x16
  shapeCasts_S16_S1x16 : S16.ShapeCasts S1x16
  shapeCasts_S5000x64_S5000x64 : S5000x64.ShapeCasts S5000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x64_S5000x64_1_0_0_1_n_n_wf : DotDims.WF S5000x128 S128x64 S5000x64 [1] [0] [0] [1] [] []
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .bf16 = 32 ∨ (Rect.block (s := S100000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .bf16 = 32 ∨ (Rect.block (s := S100000x128) S5000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .bf16 = 32 ∨ (Rect.block (s := S128x64) S128x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .bf16 = 32 ∨ (Rect.block (s := S100000x64) S5000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .bf16 = 32 ∨ (Rect.block (s := S64x16) S64x16.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .bf16 = 32 ∨ (Rect.block (s := S64x16) S64x16.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S64x128 : Shape := ⟨2, ![64, 128]⟩
abbrev S64 : Shape := ⟨1, ![64]⟩
abbrev S16x64 : Shape := ⟨2, ![16, 64]⟩
abbrev S16 : Shape := ⟨1, ![16]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128x64 : Shape := ⟨2, ![128, 64]⟩
abbrev S100000x64 : Shape := ⟨2, ![100000, 64]⟩
abbrev S1x64 : Shape := ⟨2, ![1, 64]⟩
abbrev S640000x64 : Shape := ⟨2, ![640000, 64]⟩
abbrev S64x16 : Shape := ⟨2, ![64, 16]⟩
abbrev S100000x16 : Shape := ⟨2, ![100000, 16]⟩
abbrev S1x16 : Shape := ⟨2, ![1, 16]⟩
abbrev S100000 : Shape := ⟨1, ![100000]⟩
abbrev S100000x1 : Shape := ⟨2, ![100000, 1]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S64x128, .f32⟩
  | .hbm, ⟨3, _⟩ => ⟨S64x128, .f32⟩
  | .hbm, ⟨4, _⟩ => ⟨S64, .f32⟩
  | .hbm, ⟨5, _⟩ => ⟨S16x64, .f32⟩
  | .hbm, ⟨6, _⟩ => ⟨S16x64, .f32⟩
  | .hbm, ⟨7, _⟩ => ⟨S16, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S128x64, .f32⟩
  | .hbm, ⟨26, _⟩ => ⟨S100000x64, .f32⟩
  | .hbm, ⟨27, _⟩ => ⟨S128x64, .f32⟩
  | .hbm, ⟨28, _⟩ => ⟨S100000x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000x64, .f32⟩
  | .hbm, ⟨35, _⟩ => ⟨S100000x64, .f32⟩
  | .hbm, ⟨36, _⟩ => ⟨S1x640000, .i32⟩
  | .hbm, ⟨37, _⟩ => ⟨S640000, .i32⟩
  | .hbm, ⟨38, _⟩ => ⟨S1x640000, .i32⟩
  | .hbm, ⟨39, _⟩ => ⟨S640000, .i32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x64, .f32⟩
  | .hbm, ⟨49, _⟩ => ⟨S_, .f32⟩
  | .hbm, ⟨50, _⟩ => ⟨S100000x64, .f32⟩
  | .hbm, ⟨51, _⟩ => ⟨S640000x1, .i32⟩
  | .hbm, ⟨52, _⟩ => ⟨S100000x64, .f32⟩
  | .hbm, ⟨53, _⟩ => ⟨S64x16, .f32⟩
  | .hbm, ⟨54, _⟩ => ⟨S100000x16, .f32⟩
  | .hbm, ⟨55, _⟩ => ⟨S64x16, .f32⟩
  | .hbm, ⟨56, _⟩ => ⟨S100000x16, .f32⟩
  | .hbm, ⟨57, _⟩ => ⟨S100000x16, .f32⟩
  | .hbm, ⟨58, _⟩ => ⟨S1x16, .f32⟩
  | .hbm, ⟨59, _⟩ => ⟨S100000x16, .f32⟩
  | .hbm, ⟨60, _⟩ => ⟨S100000x16, .f32⟩
  | .hbm, ⟨61, _⟩ => ⟨S_, .f32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x16, .f32⟩
  | .hbm, ⟨68, _⟩ => ⟨S100000x16, .f32⟩
  | .hbm, ⟨69, _⟩ => ⟨S100000x16, .f32⟩
  | .hbm, ⟨70, _⟩ => ⟨S_, .f32⟩
  | .hbm, ⟨71, _⟩ => ⟨S100000, .f32⟩
  | .hbm, ⟨72, _⟩ => ⟨S100000x1, .f32⟩
  | .hbm, ⟨73, _⟩ => ⟨S100000x1, .f32⟩
  | .hbm, ⟨74, _⟩ => ⟨S100000x16, .f32⟩
  | .hbm, ⟨75, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call1_cst : Ref sig .tc := ⟨.hbm, 61, rfl⟩
abbrev main_call1_v0 : Ref sig .tc := ⟨.hbm, 62, rfl⟩
abbrev main_call1_cst_0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_cst_1 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_v45 : Ref sig .tc := ⟨.hbm, 75, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S16x64_S64x16_1_0 : S16x64.Transposes [1, 0] S64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x64_S100000x64_1_0_0_1_n_n_wf : DotDims.WF S100000x128 S128x64 S100000x64 [1] [0] [0] [1] [] []
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  dot_S100000x64_S64x16_S100000x16_1_0_0_1_n_n_wf : DotDims.WF S100000x64 S64x16 S100000x16 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Spec.lean ====
/-
  The two layers of the graph convolution as functions of whole arrays over the extended reals, entry by entry.

  A layer takes the node features `x` (N rows of K entries), the neighbourhood sums `a` (the same shape), two weight
  matrices already laid out K by M, and a bias of M entries. Entry (p, q) of its affine part is

      (∑ k, x (p, k) · wr (k, q)  +  ∑ k, a (p, k) · wl (k, q))  +  b q.

  The first layer clamps that from below at zero; the second takes the row-wise logarithm of the softmax:
  with `μ p` the maximum of row `p` (folded from minus infinity), entry (p, q) is
  `(y (p, q) − μ p) − log (∑ r, exp (y (p, r) − μ p))`.

  The two constants are kept as the bit patterns both programs print (zero, minus infinity): they are never evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

variable {N K M : ℕ}

/-- Entry (p, q) of `x · wr + a · wl + b`. -/
def affineAt (x a : (⟨2, ![N, K]⟩ : Shape).Idx → EReal) (wr wl : (⟨2, ![K, M]⟩ : Shape).Idx → EReal)
    (b : (⟨1, ![M]⟩ : Shape).Idx → EReal) (p : Fin N) (q : Fin M) : EReal :=
  ((∑ k : Fin K, x (ix2 p k) * wr (ix2 k q)) + ∑ k : Fin K, a (ix2 p k) * wl (ix2 k q)) + b (ix1 q)

/-- The hidden layer: the affine part clamped from below at zero. -/
def hidden (x a : (⟨2, ![N, K]⟩ : Shape).Idx → EReal) (wr wl : (⟨2, ![K, M]⟩ : Shape).Idx → EReal)
    (b : (⟨1, ![M]⟩ : Shape).Idx → EReal) : (⟨2, ![N, M]⟩ : Shape).Idx → EReal :=
  fun i => max (affineAt x a wr wl b (i 0) (i 1)) (Ideal.ofBits .f32 0x00000000#32)

/-- A row's maximum, folded from minus infinity. -/
def rowMax (y : Fin M → EReal) : EReal :=
  (Finset.univ : Finset (Fin M)).fold max (Ideal.ofBits .f32 0xFF800000#32) y

/-- Entry `q` of the logarithm of a row's softmax, shifted by the row's maximum. -/
def logSoftmaxRow (y : Fin M → EReal) (q : Fin M) : EReal :=
  (y q - rowMax y) - Ideal.log (∑ r : Fin M, Ideal.exp (y r - rowMax y))

/-- The output layer: the row-wise logarithm of the softmax of the affine part. -/
def output (x a : (⟨2, ![N, K]⟩ : Shape).Idx → EReal) (wr wl : (⟨2, ![K, M]⟩ : Shape).Idx → EReal)
    (b : (⟨1, ![M]⟩ : Shape).Idx → EReal) : (⟨2, ![N, M]⟩ : Shape).Idx → EReal :=
  fun i => logSoftmaxRow (fun r => affineAt x a wr wl b (i 0) r) (i 1)

/-- Taking the maximum with minus infinity once more changes nothing: the fold already starts there. -/
theorem max_bot_rowMax (y : Fin M → EReal) : max (Ideal.ofBits .f32 0xFF800000#32) (rowMax y) = rowMax y :=
  max_eq_right ((Finset.le_fold_max _).mpr (Or.inl le_rfl))

end Cert.Spec

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.Region0.lean ====
/-
  The first layer's region, from its row blocks to the whole array.

  The region runs 20 points. At point t the body loads rows 5000 t … 5000 t + 4999 of the node features and of the
  neighbourhood sums (two [5000, 128] blocks), the two whole [128, 64] weight matrices and the whole [1, 64] bias, and
  stores one [5000, 64] block: entry (p, q) is

      max ((∑ k, x (p, k) · wr (k, q) + ∑ k, a (p, k) · wl (k, q)) + b q, 0),

  each product being taken into a zero accumulator, so that its entry is the plain sum over the 128 contracted
  positions. Entry (p, q) of the block depends on row p of the two feature blocks only, that is on row 5000 t + p of
  the two arrays, on column q of the two weight matrices and on entry q of the bias: it is entry (5000 t + p, q) of
  the hidden layer of the whole arrays. The block is written back to rows 5000 t … 5000 t + 4999 of the output, and
  the 20 blocks tile its 100000 rows (row r lies in the block of point r / 5000), so the output array ends holding the
  hidden layer.
-/
import proofs.«154605_j850403525401_1_alg».proof.Proof.Gen.KernelIdeal.Frame
import proofs.«154605_j850403525401_1_alg».proof.Proof.Spec
import proofs.«154605_j850403525401_1_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen
open Idealize.ShloMosaic Idealize.ShloMosaic.TcCoe Idealize.ShloMosaic.ValueIdx Idealize.SL.Sem

/-! ## The body's arithmetic at an entry -/

/-- The bias row repeated down the 5000 rows of a block reads the bias at the entry's column. -/
theorem bias_apply (b : FVec Ideal S1x64 .f32) (p : Fin 5000) (q : Fin 64) :
    broadcastTo S5000x64 b broadcasts_S1x64_S5000x64 (ix2 p q) = b (ix2 0 q) := by
  refine broadcastTo_apply b _ (ix2 p q) (ix2 0 q) fun a => ?_
  match a with
  | ⟨0, _⟩ => rfl
  | ⟨1, _⟩ => rfl

/-- Entry (p, q) of what the body stores: the two products' entries added, the bias of column q added, and the
    result clamped from below at zero. Each product is into a zero accumulator, so its entry is the plain sum over
    the 128 contracted positions. -/
theorem payload_apply (x a : Vec Ideal S5000x128 .bf16) (wr wl : Vec Ideal S128x64 .bf16) (b : Vec Ideal S1x64 .f32)
    (p : Fin 5000) (q : Fin 64) :
    k0_pay1 (F := Ideal) x a wr wl b (ix2 p q)
      = max (((∑ k : Fin 128, x (ix2 p k) * wr (ix2 k q)) + ∑ k : Fin 128, a (ix2 p k) * wl (ix2 k q)) + b (ix2 0 q))
          (Ideal.ofBits .f32 0x00000000#32) := by
  unfold k0_pay1
  simp only [shapeCast_self]
  rw [maximumf_apply, addf_apply, addf_apply, broadcast_apply, bias_apply]
  have e1 := Cert.LibDense.matmul_zero_apply (φ₁ := .bf16) (φ₂ := .bf16) dot_S5000x128_S128x64_S5000x64_1_0_0_1_n_n none
    rfl rfl rfl rfl rfl rfl x wr p q
  have e2 := Cert.LibDense.matmul_zero_apply (φ₁ := .bf16) (φ₂ := .bf16) dot_S5000x128_S128x64_S5000x64_1_0_0_1_n_n none
    rfl rfl rfl rfl rfl rfl a wl p q
  exact congrArg₂ max (congrArg₂ (· + ·) (congrArg₂ (· + ·) e1 e2) rfl) rfl

/-- A block's entry is the hidden layer's entry r · 5000 rows further down: when the two row blocks `x`, `a` are
    rows r · 5000 … r · 5000 + 4999 of the arrays `X`, `A`, and the weights and the bias are the whole arrays, entry
    `j` of the stored block is entry `i` of the hidden layer, `i` being `j` moved down by r · 5000 rows. -/
theorem hidden_block (X A : S100000x128.Idx → EReal) (Wr Wl : S128x64.Idx → EReal) (B : S1x64.Idx → EReal)
    (x a : Vec Ideal S5000x128 .bf16) (wr wl : Vec Ideal S128x64 .bf16) (b : Vec Ideal S1x64 .f32) (r : ℕ)
    (hx : ∀ (y : S5000x128.Idx) (i : S100000x128.Idx), (i 0).val = r * 5000 + (y 0).val → (i 1).val = (y 1).val → x y = X i)
    (ha : ∀ (y : S5000x128.Idx) (i : S100000x128.Idx), (i 0).val = r * 5000 + (y 0).val → (i 1).val = (y 1).val → a y = A i)
    (hwr : wr = Wr) (hwl : wl = Wl) (hb : b = B)
    (j : S5000x64.Idx) (i : S100000x64.Idx) (hi0 : (i 0).val = r * 5000 + (j 0).val) (hi1 : (i 1).val = (j 1).val) :
    k0_pay1 (F := Ideal) x a wr wl b j = Cert.Spec.hidden X A Wr Wl (fun q => B (ix2 0 (q 0))) i := by
  subst hwr hwl hb
  obtain ⟨p, q, rfl⟩ : ∃ (p : Fin 5000) (q : Fin 64), j = ix2 p q := ⟨j 0, j 1, eq_ix2 j⟩
  obtain ⟨p', q', rfl⟩ : ∃ (p' : Fin 100000) (q' : Fin 64), i = ix2 p' q' := ⟨i 0, i 1, eq_ix2 i⟩
  obtain rfl : q' = q := Fin.ext hi1
  have ex : ∀ k : Fin 128, x (ix2 p k) = X (ix2 p' k) := fun k => hx (ix2 p k) (ix2 p' k) hi0 rfl
  have ea : ∀ k : Fin 128, a (ix2 p k) = A (ix2 p' k) := fun k => ha (ix2 p k) (ix2 p' k) hi0 rfl
  rw [payload_apply]
  unfold Cert.Spec.hidden Cert.Spec.affineAt
  simp only [ex, ea]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided once over the 20 points: at point `t` the two feature windows and the output
    window sit at row block `t`, column block 0; the two weight windows and the bias window at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The hidden layer of the arrays as the region finds them. -/
abbrev hiddenArr (c : Dev nD) : S100000x64.Idx → EReal :=
  Cert.Spec.hidden (V c main_v4) (V c main_v16) (V c main_v18) (V c main_v20) (fun j => V c main_v21 (ix2 0 (j 0)))

/-- What point `t` writes back is block `t` of the hidden layer: rows 5000 t … 5000 t + 4999. -/
theorem flushed_eq (c : Dev nD) (t : Fin cfg0.N) :
    (dat0 (F := Ideal) V c).flushed 5 t = ((cfg0.win 5).blk t).view.read (Elt Ideal) (hiddenArr V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x64) zero_offsets,
    View.ld_unit_zero (S := S1x64) zero_offsets]
  obtain ⟨e00, e01, e10, e11, e20, e21, e30, e31, e40, e41, e50, e51⟩ := index_facts t
  funext j
  refine hidden_block (V c main_v4) (V c main_v16) (V c main_v18) (V c main_v20) (V c main_v21)
    (iblk0 V c 0 t) (iblk0 V c 1 t) (iblk0 V c 2 t) (iblk0 V c 3 t) (iblk0 V c 4 t) t.val ?_ ?_ ?_ ?_ ?_
    ((cfg0.win 5).xinj (grid0.coords t) j) (((cfg0.win 5).blk t).view.emb j) ?_ ?_
  · intro y i h0 h1
    show V c main_v4 (((cfg0.win 0).blk t).view.emb y) = V c main_v4 i
    refine congrArg _ (funext fun a => Fin.ext ?_)
    match a with
    | ⟨0, _⟩ => show win0_0.index t (0 : Fin 2) * 5000 + 1 * (y 0).val = (i 0).val; omega
    | ⟨1, _⟩ => show win0_0.index t (1 : Fin 2) * 128 + 1 * (y 1).val = (i 1).val; omega
  · intro y i h0 h1
    show V c main_v16 (((cfg0.win 1).blk t).view.emb y) = V c main_v16 i
    refine congrArg _ (funext fun a => Fin.ext ?_)
    match a with
    | ⟨0, _⟩ => show win0_1.index t (0 : Fin 2) * 5000 + 1 * (y 0).val = (i 0).val; omega
    | ⟨1, _⟩ => show win0_1.index t (1 : Fin 2) * 128 + 1 * (y 1).val = (i 1).val; omega
  · funext y
    show V c main_v18 (((cfg0.win 2).blk t).view.emb y) = V c main_v18 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 64 + 1 * (y 1).val = (y 1).val; omega
  · funext y
    show V c main_v20 (((cfg0.win 3).blk t).view.emb y) = V c main_v20 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 64 + 1 * (y 1).val = (y 1).val; omega
  · funext y
    show V c main_v21 (((cfg0.win 4).blk t).view.emb y) = V c main_v21 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  · show win0_5.index t (0 : Fin 2) * 5000 + 1 * (j 0).val = t.val * 5000 + (j 0).val; omega
  · show win0_5.index t (1 : Fin 2) * 64 + 1 * (j 1).val = (j 1).val; omega

/-- An entry of the output array is in point `t`'s block iff each coordinate is in the block's range on its axis. -/
theorem mem_block (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v22).slice (win0_5.rect t)).set ↔ _
  rw [View.set_slice_whole, Rect.mem_set_unit]
  exact Iff.rfl

/-- Every entry of the output array lies in the block of the point its row divided by 5000 names. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 20 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, -, -, -, -, -, -, e50, e51⟩ := index_facts t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- After the region the output array holds the hidden layer of the arrays the region found. -/
theorem array (c : Dev nD) :
    (dat0 (F := Ideal) V c).arrAt 5 cfg0.N
      = Cert.Spec.hidden (V c main_v4) (V c main_v16) (V c main_v18) (V c main_v20) (fun j => V c main_v21 (ix2 0 (j 0))) :=
  (dat0 (F := Ideal) V c).arrAt_eq_of_cover 5 (hiddenArr V c) (fun t _ => flushed_eq V c t) covered

end Cert.KernelIdeal.Region0

end
-- ==== Proof.Region1.lean ====
/-
  Region 1, the second layer of the graph convolution, from its blocks to its output array.

  The region runs over 20 grid points. At point t the body loads row block t (rows 5000 t … 5000 t + 4999) of the node
  features h and of the neighbourhood sums a (both [100000, 64]), the two whole [64, 16] weight matrices wr, wl and
  the [1, 16] bias b, and stores into row block t of the [100000, 16] output

      z − log (∑ exp z)  per row,  z = y − μ,  μ = the row's maximum of y,  y = (h · wr + a · wl) + b.

  Read at entry (p, q) of the block: each product into a zero accumulator is the sum over the 64 contracted coordinates;
  the bias broadcast reads b's entry q; the maximum reduction over axis 1 from minus infinity, viewed as a [5000, 1]
  column and broadcast back, is the fold of `max` over row p; the sum reduction over axis 1 from zero, likewise, is the
  sum over row p. That is the specification's row function of the affine part of row p. An entry of a block is the
  array's entry at block index × block size + the coordinate inside the block, so row p of block t is row 5000 t + p
  of the arrays; the weights and the bias are block (0, 0) at every point. Row r of the output lies in the block of
  point r / 5000, and every point writes its block back: the output array is the specification's.
-/
import proofs.«154605_j850403525401_1_alg».proof.Proof.Gen.KernelIdeal.Frame
import proofs.«154605_j850403525401_1_alg».proof.Proof.Spec
import proofs.«154605_j850403525401_1_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen
open Idealize.ShloMosaic Idealize.ShloMosaic.TcCoe Idealize.ShloMosaic.ValueIdx Idealize.SL.Sem

/-! ## The keepdims column forms of a shape cast and a broadcast -/

section Column
variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, q)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Column

/-! ## The body's arithmetic at an entry of a block

A block has 5000 rows. `h`, `a` are its [5000, 64] node features and neighbourhood sums, `wr`, `wl` the two [64, 16]
weight matrices, `b` the [1, 16] bias. -/

/-- The bias of a [1, 16] block as a function of its one free coordinate. -/
abbrev biasRow (b : FVec Ideal S1x16 .f32) : (⟨1, ![16]⟩ : Shape).Idx → EReal := fun j => b (ix2 (0 : Fin 1) (j 0))

/-- The affine part of the body: two products into zero accumulators added, plus the bias row broadcast over the rows. -/
def affineBlk (h a : FVec Ideal S5000x64 .bf16) (wr wl : FVec Ideal S64x16 .bf16) (b : FVec Ideal S1x16 .f32) : FVec Ideal S5000x16 .f32 :=
  addf (addf (matmul dot_S5000x64_S64x16_S5000x16_1_0_0_1_n_n none h wr (constant (F := Ideal) S5000x16 .f32 0x00000000#32))
      (matmul dot_S5000x64_S64x16_S5000x16_1_0_0_1_n_n none a wl (constant (F := Ideal) S5000x16 .f32 0x00000000#32)))
    (broadcastTo S5000x16 b broadcasts_S1x16_S5000x16)

/-- Entry (p, r) of the affine part is the specification's: each product is a sum over the 64 contracted coordinates,
    the broadcast reads the bias's entry r. -/
theorem affineBlk_apply (h a : FVec Ideal S5000x64 .bf16) (wr wl : FVec Ideal S64x16 .bf16) (b : FVec Ideal S1x16 .f32)
    (p : Fin 5000) (r : Fin 16) :
    affineBlk h a wr wl b (ix2 p r) = Cert.Spec.affineAt h a wr wl (biasRow b) p r := by
  have e1 := Cert.LibDense.matmul_zero_apply dot_S5000x64_S64x16_S5000x16_1_0_0_1_n_n none rfl rfl rfl rfl rfl rfl h wr p r
  have e2 := Cert.LibDense.matmul_zero_apply dot_S5000x64_S64x16_S5000x16_1_0_0_1_n_n none rfl rfl rfl rfl rfl rfl a wl p r
  have e3 := broadcastTo_1b_ab_apply b broadcasts_S1x16_S5000x16 p r
  unfold affineBlk Cert.Spec.affineAt
  rw [addf_apply, addf_apply]
  exact congrArg₂ (· + ·) (congrArg₂ (· + ·) e1 e2) e3

/-- Over row p of a [5000, 16] vector, the index a reduction over axis 1 inserts coordinate r into is (p, r). -/
theorem lift_row (p : Fin 5000) (r : Fin 16) : reduces_S5000x16_S5000.lift (ix1 p) r = ix2 p r := by
  funext c; apply Fin.ext
  match c with
  | ⟨0, _⟩ => rfl
  | ⟨1, _⟩ => rfl

/-- The row maximum as the body computes it: a maximum reduction over axis 1 from minus infinity, viewed as a column and
    broadcast back over the row. At (p, q) it is the fold of `max` over row p. -/
theorem rowMaxCol_apply (Y : FVec Ideal S5000x16 .f32) (p : Fin 5000) (q : Fin 16) :
    broadcastTo S5000x16 (shapeCast S5000x1
        (multiReduction (F := Ideal) .maximumf [1] S5000 Y 0xFF800000#32 reduces_S5000x16_S5000 (.inl rfl) rfl)
        shapeCasts_S5000_S5000x1) broadcasts_S5000x1_S5000x16 (ix2 p q)
      = Cert.Spec.rowMax (fun r : Fin 16 => Y (ix2 p r)) := by
  refine (broadcastTo_a1_ab_apply _ broadcasts_S5000x1_S5000x16 p q).trans ?_
  refine (shapeCast_a_a1_apply _ shapeCasts_S5000_S5000x1 p (0 : Fin 1)).trans ?_
  refine (Ideal.multiReduction_maximumf_single Y 0xFF800000#32 reduces_S5000x16_S5000 (.inl rfl) rfl (ix1 p)).trans ?_
  unfold Cert.Spec.rowMax
  exact congrArg (fun f : Fin 16 → EReal => (Finset.univ : Finset (Fin 16)).fold max (Ideal.ofBits .f32 0xFF800000#32) f)
    (funext fun r => congrArg Y (lift_row p r))

/-- The logarithm of the row sum as the body computes it: a sum reduction over axis 1, viewed as a column, its logarithm
    taken and broadcast back over the row. At (p, q) it is the logarithm of the sum over row p. -/
theorem logRowSumCol_apply (Z : FVec Ideal S5000x16 .f32) (p : Fin 5000) (q : Fin 16) :
    broadcastTo S5000x16 (log (shapeCast S5000x1
        (multiReduction (F := Ideal) .add [1] S5000 Z 0x00000000#32 reduces_S5000x16_S5000 (.inl rfl) rfl)
        shapeCasts_S5000_S5000x1)) broadcasts_S5000x1_S5000x16 (ix2 p q)
      = Ideal.log (∑ r : Fin 16, Z (ix2 p r)) := by
  refine (broadcastTo_a1_ab_apply _ broadcasts_S5000x1_S5000x16 p q).trans ?_
  show Ideal.log (shapeCast S5000x1 _ shapeCasts_S5000_S5000x1 (ix2 p (0 : Fin 1))) = _
  refine congrArg Ideal.log ?_
  refine (shapeCast_a_a1_apply _ shapeCasts_S5000_S5000x1 p (0 : Fin 1)).trans ?_
  refine (Ideal.multiReduction_add_single Z 0x00000000#32 reduces_S5000x16_S5000 (.inl rfl) rfl (ix1 p)).trans ?_
  exact Finset.sum_congr rfl fun r _ => congrArg Z (lift_row p r)

/-- The logarithm of the softmax of the rows of a [5000, 16] vector, as the body computes it. -/
def logSoftmaxBlk (Y : FVec Ideal S5000x16 .f32) : FVec Ideal S5000x16 .f32 :=
  subf (subf Y (broadcastTo S5000x16 (shapeCast S5000x1
        (multiReduction (F := Ideal) .maximumf [1] S5000 Y 0xFF800000#32 reduces_S5000x16_S5000 (.inl rfl) rfl)
        shapeCasts_S5000_S5000x1) broadcasts_S5000x1_S5000x16))
    (broadcastTo S5000x16 (log (shapeCast S5000x1
        (multiReduction (F := Ideal) .add [1] S5000
          (exp (subf Y (broadcastTo S5000x16 (shapeCast S5000x1
            (multiReduction (F := Ideal) .maximumf [1] S5000 Y 0xFF800000#32 reduces_S5000x16_S5000 (.inl rfl) rfl)
            shapeCasts_S5000_S5000x1) broadcasts_S5000x1_S5000x16)))
          0x00000000#32 reduces_S5000x16_S5000 (.inl rfl) rfl)
        shapeCasts_S5000_S5000x1)) broadcasts_S5000x1_S5000x16)

/-- Entry (p, q) of it is the specification's row function of row p, at q. -/
theorem logSoftmaxBlk_apply (Y : FVec Ideal S5000x16 .f32) (p : Fin 5000) (q : Fin 16) :
    logSoftmaxBlk Y (ix2 p q) = Cert.Spec.logSoftmaxRow (fun r : Fin 16 => Y (ix2 p r)) q := by
  unfold logSoftmaxBlk Cert.Spec.logSoftmaxRow
  rw [subf_apply, subf_apply, rowMaxCol_apply, logRowSumCol_apply]
  refine congrArg (fun s => Y (ix2 p q) - Cert.Spec.rowMax (fun r : Fin 16 => Y (ix2 p r)) - Ideal.log s)
    (Finset.sum_congr rfl fun r _ => ?_)
  show Ideal.exp (subf Y _ (ix2 p r)) = _
  rw [subf_apply, rowMaxCol_apply]

/-- The body's payload is the logarithm of the softmax of the affine part (the same-shape casts of the loaded blocks
    are identities). -/
theorem pay_eq (h a : FVec Ideal S5000x64 .bf16) (wr wl : FVec Ideal S64x16 .bf16) (b : FVec Ideal S1x16 .f32) :
    k1_pay1 (F := Ideal) h a wr wl b = logSoftmaxBlk (affineBlk h a wr wl b) := by
  unfold k1_pay1 logSoftmaxBlk affineBlk
  simp only [shapeCast_self]

/-- THE PAYLOAD AT AN ENTRY: (p, q) of what the body stores is the specification's row function of the affine part
    of row p of the loaded blocks, at q. -/
theorem pay_apply (h a : FVec Ideal S5000x64 .bf16) (wr wl : FVec Ideal S64x16 .bf16) (b : FVec Ideal S1x16 .f32)
    (p : Fin 5000) (q : Fin 16) :
    k1_pay1 (F := Ideal) h a wr wl b (ix2 p q)
      = Cert.Spec.logSoftmaxRow (fun r : Fin 16 => Cert.Spec.affineAt h a wr wl (biasRow b) p r) q := by
  rw [pay_eq, logSoftmaxBlk_apply]
  exact congrArg (fun y : Fin 16 → EReal => Cert.Spec.logSoftmaxRow y q) (funext fun r => affineBlk_apply h a wr wl b p r)

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the 20 grid points: the two row-blocked inputs and the output are at row block
    `t`, column block 0; the weights and the bias are whole, at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row block `t` of the node features: its entry (p, k) is entry (5000 t + p, k) of the array. -/
theorem feat_blk_apply (c : Dev nD) (t : Fin cfg1.N) (p : Fin 5000) (k : Fin 64) (P : Fin 100000)
    (hP : P.val = t.val * 5000 + p.val) :
    (iblk1 (F := Ideal) V c 0 t : FVec Ideal S5000x64 .bf16) (ix2 p k) = V c main_v23 (ix2 P k) := by
  obtain ⟨e00, e01, -⟩ := block_indices t
  show V c main_v23 (((cfg1.win 0).blk t).view.emb (ix2 p k)) = _
  refine congrArg (V c main_v23) (funext fun a => Fin.ext ?_)
  match a with
  | ⟨0, _⟩ => show win1_0.index t (0 : Fin 2) * 5000 + 1 * p.val = P.val; omega
  | ⟨1, _⟩ => show win1_0.index t (1 : Fin 2) * 64 + 1 * k.val = k.val; omega

/-- Row block `t` of the neighbourhood sums likewise. -/
theorem nbr_blk_apply (c : Dev nD) (t : Fin cfg1.N) (p : Fin 5000) (k : Fin 64) (P : Fin 100000)
    (hP : P.val = t.val * 5000 + p.val) :
    (iblk1 (F := Ideal) V c 1 t : FVec Ideal S5000x64 .bf16) (ix2 p k) = V c main_v35 (ix2 P k) := by
  obtain ⟨-, -, e10, e11, -⟩ := block_indices t
  show V c main_v35 (((cfg1.win 1).blk t).view.emb (ix2 p k)) = _
  refine congrArg (V c main_v35) (funext fun a => Fin.ext ?_)
  match a with
  | ⟨0, _⟩ => show win1_1.index t (0 : Fin 2) * 5000 + 1 * p.val = P.val; omega
  | ⟨1, _⟩ => show win1_1.index t (1 : Fin 2) * 64 + 1 * k.val = k.val; omega

/-- The first weight matrix is one block, the same at every point. -/
theorem wr_blk_apply (c : Dev nD) (t : Fin cfg1.N) (k : Fin 64) (r : Fin 16) :
    (iblk1 (F := Ideal) V c 2 t : FVec Ideal S64x16 .bf16) (ix2 k r) = V c main_v37 (ix2 k r) := by
  obtain ⟨-, -, -, -, e20, e21, -⟩ := block_indices t
  show V c main_v37 (((cfg1.win 2).blk t).view.emb (ix2 k r)) = _
  refine congrArg (V c main_v37) (funext fun a => Fin.ext ?_)
  match a with
  | ⟨0, _⟩ => show win1_2.index t (0 : Fin 2) * 64 + 1 * k.val = k.val; omega
  | ⟨1, _⟩ => show win1_2.index t (1 : Fin 2) * 16 + 1 * r.val = r.val; omega

/-- The second weight matrix likewise. -/
theorem wl_blk_apply (c : Dev nD) (t : Fin cfg1.N) (k : Fin 64) (r : Fin 16) :
    (iblk1 (F := Ideal) V c 3 t : FVec Ideal S64x16 .bf16) (ix2 k r) = V c main_v39 (ix2 k r) := by
  obtain ⟨-, -, -, -, -, -, e30, e31, -⟩ := block_indices t
  show V c main_v39 (((cfg1.win 3).blk t).view.emb (ix2 k r)) = _
  refine congrArg (V c main_v39) (funext fun a => Fin.ext ?_)
  match a with
  | ⟨0, _⟩ => show win1_3.index t (0 : Fin 2) * 64 + 1 * k.val = k.val; omega
  | ⟨1, _⟩ => show win1_3.index t (1 : Fin 2) * 16 + 1 * r.val = r.val; omega

/-- The bias row likewise. -/
theorem bias_blk_apply (c : Dev nD) (t : Fin cfg1.N) (r : Fin 16) :
    (iblk1 (F := Ideal) V c 4 t : FVec Ideal S1x16 .f32) (ix2 (0 : Fin 1) r) = V c main_v40 (ix2 (0 : Fin 1) r) := by
  obtain ⟨-, -, -, -, -, -, -, -, e40, e41, -⟩ := block_indices t
  show V c main_v40 (((cfg1.win 4).blk t).view.emb (ix2 (0 : Fin 1) r)) = _
  refine congrArg (V c main_v40) (funext fun a => Fin.ext ?_)
  match a with
  | ⟨0, _⟩ => show win1_4.index t (0 : Fin 2) * 1 + 1 * 0 = 0; omega
  | ⟨1, _⟩ => show win1_4.index t (1 : Fin 2) * 16 + 1 * r.val = r.val; omega

/-- The specification's output array of the arrays region 1 is entered with. -/
abbrev specOut (c : Dev nD) : S100000x16.Idx → EReal :=
  Cert.Spec.output (V c main_v23) (V c main_v35) (V c main_v37) (V c main_v39) (fun j => V c main_v40 (ix2 0 (j 0)))

/-- WHAT POINT `t` WRITES BACK is block `t` of the specification's output: entry (p, q) of the stored payload is the
    row function of the affine part of row p of the blocks, whose entries are those of row 5000 t + p of the arrays. -/
theorem written_block (c : Dev nD) (t : Fin cfg1.N) :
    (dat1 (F := Ideal) V c).flushed 5 t = ((cfg1.win 5).blk t).view.read (Elt Ideal) (specOut V c) := by
  show (cfg1.win 5).cut (grid1.coords t) ((dat1 (F := Ideal) V c).after 5 t) = _
  rw [after1_5]
  unfold out1_5
  rw [View.canon_unit_zero zero_offsets]
  simp only [View.ld_unit_zero (S := S5000x64) zero_offsets, View.ld_unit_zero (S := S64x16) zero_offsets, View.ld_unit_zero (S := S1x16) zero_offsets]
  obtain ⟨-, -, -, -, -, -, -, -, -, -, e50, e51⟩ := block_indices t
  funext j
  obtain ⟨p, q, rfl⟩ : ∃ (p : Fin 5000) (q : Fin 16), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = specOut V c (((cfg1.win 5).blk t).view.emb (ix2 p q))
  refine (pay_apply _ _ _ _ _ p q).trans ?_
  have hN : cfg1.N = 20 := rfl
  have hP : t.val * 5000 + p.val < 100000 := by have := t.isLt; omega
  have hi : ((cfg1.win 5).blk t).view.emb (ix2 p q) = ix2 (⟨t.val * 5000 + p.val, hP⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 16 + 1 * q.val = q.val; omega
  rw [hi]
  refine congrArg (fun y : Fin 16 → EReal => Cert.Spec.logSoftmaxRow y q) (funext fun r => ?_)
  unfold Cert.Spec.affineAt
  refine congrArg₂ (· + ·) (congrArg₂ (· + ·) (Finset.sum_congr rfl fun k _ => ?_) (Finset.sum_congr rfl fun k _ => ?_)) ?_
  · exact congrArg₂ (· * ·) (feat_blk_apply V c t p k _ rfl) (wr_blk_apply V c t k r)
  · exact congrArg₂ (· * ·) (nbr_blk_apply V c t p k _ rfl) (wl_blk_apply V c t k r)
  · exact bias_blk_apply V c t r

/-- An index of the output array is in point `t`'s block iff each coordinate is in the block's range on its axis. -/
theorem mem_out_block (t : Fin cfg1.N) (i : S100000x16.Idx) :
    i ∈ ((cfg1.win 5).blk t).view.set ↔ ∀ a : Fin 2, win1_5.index t a * S5000x16.size a ≤ (i a).val
      ∧ (i a).val < win1_5.index t a * S5000x16.size a + S5000x16.size a := by
  show i ∈ ((View.whole main_v41).slice (win1_5.rect t)).set ↔ _
  rw [View.set_slice_whole, Rect.mem_set_unit]
  exact Iff.rfl

/-- THE COVER: row `r` of the output array lies in the block of point `r / 5000`, which is written back. -/
theorem rows_covered (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have hN : cfg1.N = 20 := rfl
  obtain ⟨t, ht⟩ : ∃ t : Fin cfg1.N, t.val = (i 0).val / 5000 := ⟨⟨(i 0).val / 5000, by rw [hN]; omega⟩, rfl⟩
  obtain ⟨-, -, -, -, -, -, -, -, -, -, e50, e51⟩ := block_indices t
  refine ⟨t, flush1_5 t, ?_⟩
  rw [mem_out_block]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 16 ≤ (i 1).val ∧ (i 1).val < win1_5.index t (1 : Fin 2) * 16 + 16
    omega

/-- THE OUTPUT ARRAY after region 1 is the specification's output of the arrays the region is entered with: every point
    writes back its block of it, and the blocks cover the array. -/
theorem array (c : Dev nD) :
    (dat1 (F := Ideal) V c).arrAt 5 cfg1.N
      = Cert.Spec.output (V c main_v23) (V c main_v35) (V c main_v37) (V c main_v39) (fun j => V c main_v40 (ix2 0 (j 0))) :=
  (dat1 (F := Ideal) V c).arrAt_eq_of_cover 5 (specOut V c) (fun t _ => written_block V c t) rows_covered

end Cert.KernelIdeal.Region1

end
-- ==== Proof.RefValue.lean ====
/-
  The reference's two layers are the specification's functions.

  Read one operation at a time, the reference computes for the first layer, at entry (p, q),

      max ((∑ k, x (p, k) · wr (k, q) + ∑ k, a (p, k) · wl (k, q)) + b q, 0),

  with `x` the node features, `a` the neighbourhood sums (a scatter-add of gathered rows, kept here as one opaque
  array), `wr`, `wl` the two weight matrices transposed to 128 by 64, and `b` the bias, which reaches the sum through
  two broadcasts that read entry q. That is the specification's hidden layer.

  The second layer forms the same affine part `y` from the hidden layer, its neighbourhood sums, the two 64 by 16
  transposed weight matrices and its bias, and then the logarithm of the softmax of each row: the row's maximum `μ p`
  is a reduce with a maximum body started from minus infinity, that is the fold of `max` over the row's 16 entries;
  the reference takes the maximum of minus infinity and `μ p` once more, which changes nothing; the sum of
  `exp (y (p, r) − μ p)` over the row starts from zero; and entry (p, q) is `(y (p, q) − μ p)` minus the logarithm
  of that sum. That is the specification's output layer.
-/
import proofs.«154605_j850403525401_1_alg».proof.Proof.RefRead
import proofs.«154605_j850403525401_1_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP
open Idealize.ShloMosaic Idealize.ShloMosaic.ValueIdx

/-! ## The first layer -/

/-- The reference's first layer is the specification's hidden layer of the node features, the neighbourhood sums,
    the two transposed weight matrices and the bias: entry (p, q) is the two general products' entries added (each
    the sum over the 128 contracted positions), the bias of column q added (it arrives through two broadcasts that
    read entry q), and the maximum with the zero constant taken. -/
theorem hidden_eq (x0 : (⟨S100000x128, .f32⟩ : BufTy).Contents (Elt Ideal)) (x1 : (⟨S2x640000, .i32⟩ : BufTy).Contents (Elt Ideal))
    (x2 x3 : (⟨S64x128, .f32⟩ : BufTy).Contents (Elt Ideal)) (x4 : (⟨S64, .f32⟩ : BufTy).Contents (Elt Ideal)) :
    val_main_v22 (F := Ideal) x0 x1 x2 x3 x4
      = Cert.Spec.hidden x0 (val_main_v13 (F := Ideal) x0 x1) (val_main_v14 (F := Ideal) x3) (val_main_v16 (F := Ideal) x2) x4 := by
  funext i
  obtain ⟨p, q, rfl⟩ : ∃ (p : Fin 100000) (q : Fin 64), i = ix2 p q := ⟨i 0, i 1, eq_ix2 i⟩
  rw [val_main_v22_apply, val_main_v21_apply, val_main_v18_apply, val_main_v15_apply, val_main_v17_apply,
    val_main_v20_apply, val_main_v19_apply, val_main_call0_v0_apply, val_main_call0_cst_apply]
  generalize val_main_v13 (F := Ideal) x0 x1 = a
  generalize val_main_v14 (F := Ideal) x3 = wr
  generalize val_main_v16 (F := Ideal) x2 = wl
  have el : ∀ k : Fin 128, lidx_main_v15 (ix2 p q) k = ix2 p k := fun k =>
    funext fun d => Fin.ext (by match d with | ⟨0, _⟩ => rfl | ⟨1, _⟩ => rfl)
  have er : ∀ k : Fin 128, ridx_main_v15 (ix2 p q) k = ix2 k q := fun k =>
    funext fun d => Fin.ext (by match d with | ⟨0, _⟩ => rfl | ⟨1, _⟩ => rfl)
  have el' : ∀ k : Fin 128, lidx_main_v17 (ix2 p q) k = ix2 p k := fun k =>
    funext fun d => Fin.ext (by match d with | ⟨0, _⟩ => rfl | ⟨1, _⟩ => rfl)
  have er' : ∀ k : Fin 128, ridx_main_v17 (ix2 p q) k = ix2 k q := fun k =>
    funext fun d => Fin.ext (by match d with | ⟨0, _⟩ => rfl | ⟨1, _⟩ => rfl)
  have eb : idx_main_v19 (idx_main_v20 (ix2 p q)) = ix1 q :=
    funext fun d => Fin.ext (by match d with | ⟨0, _⟩ => rfl)
  simp only [el, er, el', er', eb, Ideal.maximumf_def, Ideal.addf_def, Ideal.ofBits_def]
  rfl

/-! ## The second layer -/

/-- The reduced row index `p` with the column `k` put back is (p, k). -/
theorem lift_row (h : S100000x16.Reduces [1] S100000) (p : Fin 100000) (k : Fin (S100000x16.size 1)) :
    h.lift (ix1 p) k = ix2 p (⟨k.val, k.isLt⟩ : Fin 16) := by
  funext c; apply Fin.ext
  fin_cases c <;> rfl

/-- The second layer's affine part: entry (p, r) is the two general products' entries added (each the sum over the 64
    contracted positions) and the bias of column r added. -/
theorem affine_eq (x0 : (⟨S100000x128, .f32⟩ : BufTy).Contents (Elt Ideal)) (x1 : (⟨S2x640000, .i32⟩ : BufTy).Contents (Elt Ideal))
    (x2 x3 : (⟨S64x128, .f32⟩ : BufTy).Contents (Elt Ideal)) (x4 : (⟨S64, .f32⟩ : BufTy).Contents (Elt Ideal))
    (x5 x6 : (⟨S16x64, .f32⟩ : BufTy).Contents (Elt Ideal)) (x7 : (⟨S16, .f32⟩ : BufTy).Contents (Elt Ideal))
    (p : Fin 100000) (r : Fin 16) :
    val_main_v44 (F := Ideal) x0 x1 x2 x3 x4 x5 x6 x7 (ix2 p r)
      = Cert.Spec.affineAt (val_main_v22 (F := Ideal) x0 x1 x2 x3 x4) (val_main_v36 (F := Ideal) x0 x1 x2 x3 x4)
          (val_main_v37 (F := Ideal) x6) (val_main_v39 (F := Ideal) x5) x7 p r := by
  rw [val_main_v44_apply, val_main_v41_apply, val_main_v38_apply, val_main_v40_apply, val_main_v43_apply, val_main_v42_apply]
  generalize val_main_v22 (F := Ideal) x0 x1 x2 x3 x4 = h
  generalize val_main_v36 (F := Ideal) x0 x1 x2 x3 x4 = a
  generalize val_main_v37 (F := Ideal) x6 = wr
  generalize val_main_v39 (F := Ideal) x5 = wl
  have el : ∀ k : Fin 64, lidx_main_v38 (ix2 p r) k = ix2 p k := fun k =>
    funext fun d => Fin.ext (by match d with | ⟨0, _⟩ => rfl | ⟨1, _⟩ => rfl)
  have er : ∀ k : Fin 64, ridx_main_v38 (ix2 p r) k = ix2 k r := fun k =>
    funext fun d => Fin.ext (by match d with | ⟨0, _⟩ => rfl | ⟨1, _⟩ => rfl)
  have el' : ∀ k : Fin 64, lidx_main_v40 (ix2 p r) k = ix2 p k := fun k =>
    funext fun d => Fin.ext (by match d with | ⟨0, _⟩ => rfl | ⟨1, _⟩ => rfl)
  have er' : ∀ k : Fin 64, ridx_main_v40 (ix2 p r) k = ix2 k r := fun k =>
    funext fun d => Fin.ext (by match d with | ⟨0, _⟩ => rfl | ⟨1, _⟩ => rfl)
  have eb : idx_main_v42 (idx_main_v43 (ix2 p r)) = ix1 r :=
    funext fun d => Fin.ext (by match d with | ⟨0, _⟩ => rfl)
  simp only [el, er, el', er', eb, Ideal.addf_def]
  rfl

/-- The reference's row maximum: the reduce with a maximum body along the columns, started from minus infinity, is
    the fold of `max` over the 16 entries of the row. -/
theorem rowMax_eq (x0 : (⟨S100000x128, .f32⟩ : BufTy).Contents (Elt Ideal)) (x1 : (⟨S2x640000, .i32⟩ : BufTy).Contents (Elt Ideal))
    (x2 x3 : (⟨S64x128, .f32⟩ : BufTy).Contents (Elt Ideal)) (x4 : (⟨S64, .f32⟩ : BufTy).Contents (Elt Ideal))
    (x5 x6 : (⟨S16x64, .f32⟩ : BufTy).Contents (Elt Ideal)) (x7 : (⟨S16, .f32⟩ : BufTy).Contents (Elt Ideal))
    (p : Fin 100000) :
    val_main_call1_v0 (F := Ideal) x0 x1 x2 x3 x4 x5 x6 x7 (ix1 p)
      = Cert.Spec.rowMax (fun r : Fin 16 => val_main_v44 (F := Ideal) x0 x1 x2 x3 x4 x5 x6 x7 (ix2 p r)) := by
  unfold val_main_call1_v0
  generalize val_main_v44 (F := Ideal) x0 x1 x2 x3 x4 x5 x6 x7 = y
  have h : S100000x16.Reduces [1] S100000 := by decide
  refine (Host.reduce_eq_fold_single (FloatOps.maximumf (F := Ideal) (φ := .f32)) y (val_main_call1_cst (F := Ideal))
    reducesTo_S100000x16_S100000_d1 h h_S_ (ix1 p)).trans ?_
  have hf : (y ∘ h.lift (ix1 p)) = fun r : Fin 16 => y (ix2 p r) := funext fun k => congrArg y (lift_row h p k)
  exact congrArg (fun f => Finset.fold max (Ideal.ofBits .f32 0xFF800000#32) f (Finset.univ : Finset (Fin 16))) hf

/-- The reference's second layer is the specification's output layer of the hidden layer, its neighbourhood sums, the
    two transposed weight matrices and the bias. At entry (p, q): the shift is the maximum of minus infinity and the
    row's maximum, which is the row's maximum (the fold already starts at minus infinity); the sum of the
    exponentials starts from the zero constant; the logarithm of that sum is subtracted from the shifted entry. -/
theorem output_eq (x0 : (⟨S100000x128, .f32⟩ : BufTy).Contents (Elt Ideal)) (x1 : (⟨S2x640000, .i32⟩ : BufTy).Contents (Elt Ideal))
    (x2 x3 : (⟨S64x128, .f32⟩ : BufTy).Contents (Elt Ideal)) (x4 : (⟨S64, .f32⟩ : BufTy).Contents (Elt Ideal))
    (x5 x6 : (⟨S16x64, .f32⟩ : BufTy).Contents (Elt Ideal)) (x7 : (⟨S16, .f32⟩ : BufTy).Contents (Elt Ideal)) :
    val_main_v45 (F := Ideal) x0 x1 x2 x3 x4 x5 x6 x7
      = Cert.Spec.output (val_main_v22 (F := Ideal) x0 x1 x2 x3 x4) (val_main_v36 (F := Ideal) x0 x1 x2 x3 x4)
          (val_main_v37 (F := Ideal) x6) (val_main_v39 (F := Ideal) x5) x7 := by
  funext i
  obtain ⟨p, q, rfl⟩ : ∃ (p : Fin 100000) (q : Fin 16), i = ix2 p q := ⟨i 0, i 1, eq_ix2 i⟩
  have e10 : idx_main_call1_v8 (idx_main_call1_v10 (ix2 p q)) = ix1 p :=
    funext fun d => Fin.ext (by match d with | ⟨0, _⟩ => rfl)
  have e7 : ∀ k : Fin 16, idx_main_call1_v7 (ix1 p) k = ix2 p k := fun k =>
    funext fun d => Fin.ext (by match d with | ⟨0, _⟩ => rfl | ⟨1, _⟩ => rfl)
  have e4 : ∀ r : Fin 16, idx_main_call1_v3 (idx_main_call1_v4 (ix2 p r)) = ix1 p := fun r =>
    funext fun d => Fin.ext (by match d with | ⟨0, _⟩ => rfl)
  have shift : val_main_call1_v2 (F := Ideal) x0 x1 x2 x3 x4 x5 x6 x7 (ix1 p)
      = Cert.Spec.rowMax (fun r : Fin 16 => val_main_v44 (F := Ideal) x0 x1 x2 x3 x4 x5 x6 x7 (ix2 p r)) := by
    rw [val_main_call1_v2_apply, val_main_call1_v1_apply, val_main_call1_cst_0_apply, rowMax_eq]
    exact Cert.Spec.max_bot_rowMax _
  have shifted : ∀ r : Fin 16, val_main_call1_v5 (F := Ideal) x0 x1 x2 x3 x4 x5 x6 x7 (ix2 p r)
      = val_main_v44 (F := Ideal) x0 x1 x2 x3 x4 x5 x6 x7 (ix2 p r)
        - Cert.Spec.rowMax (fun r : Fin 16 => val_main_v44 (F := Ideal) x0 x1 x2 x3 x4 x5 x6 x7 (ix2 p r)) := fun r => by
    rw [val_main_call1_v5_apply, val_main_call1_v4_apply, val_main_call1_v3_apply, e4, shift]
    rfl
  rw [val_main_v45_apply, val_main_call1_v10_apply, val_main_call1_v9_apply, val_main_call1_v8_apply, e10,
    val_main_call1_v7_apply, val_main_call1_cst_1_apply]
  simp only [e7, val_main_call1_v6_apply, shifted, affine_eq, Ideal.subf_def, Ideal.hostUnary_exp_def, Ideal.hostUnary_log_def,
    Ideal.ofBits_def, Ideal.ofBits_zero_f32, zero_add]
  rfl

end Cert.ReferenceIdeal.RefValue

end
-- ==== Proof.KernelValue.lean ====
/-
  What the kernel's program leaves in its result buffer, as a function of its eight arguments.

  The program is four stretches in a row: host operations, the first layer's region, host operations, the second
  layer's region. Read at the extended reals, where a change of float format changes no entry:

  * before the first region the host narrows the node features `x` (nothing, here), gathers their rows at the edge
    sources (negative sources wrapped) and adds them into the rows the edge targets name, starting from zero: the
    neighbourhood sums; it transposes the two first-layer weight matrices and views the bias as one row. These are,
    operation for operation, the first stages of the reference, so the region's five arrays are the reference's
    stages of the arguments;
  * the first region leaves the hidden layer of those arrays in its output array: the reference's hidden features;
  * the second stretch repeats the gather and the scatter-add on the hidden features, with the same edge sources and
    targets the first stretch computed (the reference computes them again: the same operations of the same argument),
    transposes the second layer's weights and views its bias as one row;
  * the second region leaves the output layer of those arrays in the result buffer: the reference's last stage.

  The gather and the scatter-add are never opened: both programs apply the same ones to the same operands.
-/
import proofs.«154605_j850403525401_1_alg».proof.Proof.Gen.KernelIdeal.Frame
import proofs.«154605_j850403525401_1_alg».proof.Proof.Region0
import proofs.«154605_j850403525401_1_alg».proof.Proof.Region1
import proofs.«154605_j850403525401_1_alg».proof.Proof.RefRead
import proofs.«154605_j850403525401_1_alg».proof.Proof.RefValue
import Idealize.ShloMosaic.Lib.StableHlo.Run
import Idealize.ShloMosaic.Lib.Pipeline.Value
import Idealize.ShloMosaic.Lib.ValueIdx

noncomputable section

namespace Cert.KernelIdeal.KernelValue

open Cert.KernelIdeal Cert.KernelIdeal.Gen
open Idealize.ShloMosaic Idealize.ShloMosaic.TcCoe Idealize.ShloMosaic.ValueIdx Idealize.SL.Sem Idealize.ShloMosaic.StableHlo

/-! ## Two facts about the extended reals' reading -/

/-- At the extended reals a narrowing of the float format changes no entry. -/
theorem truncf_ideal {s : Shape} {φ ψ : FTy} (a : FVec Ideal s φ) (h : ψ.bits < φ.bits) :
    (truncf ψ a h : s.Idx → EReal) = (a : s.Idx → EReal) := rfl

/-- Nor does a widening. -/
theorem extf_ideal {s : Shape} {φ ψ : FTy} (a : FVec Ideal s φ) (h : φ.bits < ψ.bits) :
    (extf ψ a h : s.Idx → EReal) = (a : s.Idx → EReal) := rfl

/-- A vector of n entries viewed as one row of n reads, at (0, q), its entry q. -/
theorem row_of_vector {n : ℕ} (b : (⟨1, ![n]⟩ : Shape).Idx → EReal) (h : (⟨1, ![n]⟩ : Shape).ShapeCasts ⟨2, ![1, n]⟩)
    (q : Fin n) : shapeCast ⟨2, ![1, n]⟩ b h (ix2 (0 : Fin 1) q) = b (ix1 q) :=
  shapeCast_apply b h _ _ (by
    rw [Shape.rowMajor_val_two, Shape.rowMajor_val_one]
    show q.val = 0 * n + q.val
    omega)

variable (m : (ℓ : Loc nD τ sig) → Buf (Elt Ideal) ℓ) (ρ : Dev nD → PrngReg)

/-! ## The eight arguments -/

/-- The node features. -/
abbrev a0 (c : Dev nD) : S100000x128.Idx → EReal := m ((c : Thread nD τ).loc main_arg0)
/-- The edges: row 0 the sources, row 1 the targets. -/
abbrev a1 (c : Dev nD) : IVec S2x640000 32 := m ((c : Thread nD τ).loc main_arg1)
/-- The first layer's weights on the neighbourhood sums. -/
abbrev a2 (c : Dev nD) : S64x128.Idx → EReal := m ((c : Thread nD τ).loc main_arg2)
/-- The first layer's weights on the node's own features. -/
abbrev a3 (c : Dev nD) : S64x128.Idx → EReal := m ((c : Thread nD τ).loc main_arg3)
/-- The first layer's bias. -/
abbrev a4 (c : Dev nD) : S64.Idx → EReal := m ((c : Thread nD τ).loc main_arg4)
/-- The second layer's weights on the neighbourhood sums. -/
abbrev a5 (c : Dev nD) : S16x64.Idx → EReal := m ((c : Thread nD τ).loc main_arg5)
/-- The second layer's weights on the node's own features. -/
abbrev a6 (c : Dev nD) : S16x64.Idx → EReal := m ((c : Thread nD τ).loc main_arg6)
/-- The second layer's bias. -/
abbrev a7 (c : Dev nD) : S16.Idx → EReal := m ((c : Thread nD τ).loc main_arg7)

/-! ## The first region's arrays -/

/-- The node features as the first region finds them: the argument. -/
theorem entry0_features (c : Dev nD) : (V1 m ρ c main_v4 : S100000x128.Idx → EReal) = a0 m c := by
  show StableHlo.after hostOps0 (W0 m ρ c) (Proc.devRef .tc main_v4) = _
  after_results
  simp only [truncf_ideal]

set_option maxHeartbeats 1000000 in
/-- The neighbourhood sums as the first region finds them: the reference's stage of the features and the edges. -/
theorem entry0_sums (c : Dev nD) :
    (V1 m ρ c main_v16 : S100000x128.Idx → EReal) = Cert.ReferenceIdeal.ReadP.val_main_v13 (F := Ideal) (a0 m c) (a1 m c) := by
  show StableHlo.after hostOps0 (W0 m ρ c) (Proc.devRef .tc main_v16) = _
  after_results
  simp only [truncf_ideal, extf_ideal]
  simp only [Cert.ReferenceIdeal.ReadP.val_main_v13, Cert.ReferenceIdeal.ReadP.val_main_v12, Cert.ReferenceIdeal.ReadP.val_main_v11, Cert.ReferenceIdeal.ReadP.val_main_v10, Cert.ReferenceIdeal.ReadP.val_main_v9,
    Cert.ReferenceIdeal.ReadP.val_main_v8, Cert.ReferenceIdeal.ReadP.val_main_v7, Cert.ReferenceIdeal.ReadP.val_main_v6, Cert.ReferenceIdeal.ReadP.val_main_v5, Cert.ReferenceIdeal.ReadP.val_main_v4, Cert.ReferenceIdeal.ReadP.val_main_v3,
    Cert.ReferenceIdeal.ReadP.val_main_v2, Cert.ReferenceIdeal.ReadP.val_main_v1, Cert.ReferenceIdeal.ReadP.val_main_v0, Cert.ReferenceIdeal.ReadP.val_main_c, Cert.ReferenceIdeal.ReadP.val_main_c_0, Cert.ReferenceIdeal.ReadP.val_main_cst]
  rfl

/-- The weights on the node's own features, transposed. -/
theorem entry0_wroot (c : Dev nD) : (V1 m ρ c main_v18 : S128x64.Idx → EReal) = Cert.ReferenceIdeal.ReadP.val_main_v14 (F := Ideal) (a3 m c) := by
  show StableHlo.after hostOps0 (W0 m ρ c) (Proc.devRef .tc main_v18) = _
  after_results
  simp only [truncf_ideal]
  simp only [Cert.ReferenceIdeal.ReadP.val_main_v14]

/-- The weights on the neighbourhood sums, transposed. -/
theorem entry0_wrel (c : Dev nD) : (V1 m ρ c main_v20 : S128x64.Idx → EReal) = Cert.ReferenceIdeal.ReadP.val_main_v16 (F := Ideal) (a2 m c) := by
  show StableHlo.after hostOps0 (W0 m ρ c) (Proc.devRef .tc main_v20) = _
  after_results
  simp only [truncf_ideal]
  simp only [Cert.ReferenceIdeal.ReadP.val_main_v16]

/-- The bias row read at (0, q) is the bias's entry q. -/
theorem entry0_bias (c : Dev nD) :
    (fun j : (⟨1, ![64]⟩ : Shape).Idx => (V1 m ρ c main_v21 : S1x64.Idx → EReal) (ix2 0 (j 0))) = a4 m c := by
  have h : (V1 m ρ c main_v21 : S1x64.Idx → EReal) = shapeCast S1x64 (a4 m c) shapeCasts_S64_S1x64 := by
    show StableHlo.after hostOps0 (W0 m ρ c) (Proc.devRef .tc main_v21) = _
    after_results
    rfl
  funext j
  rw [h]
  exact (row_of_vector (a4 m c) shapeCasts_S64_S1x64 (j 0)).trans (congrArg (a4 m c) (eq_ix1 j).symm)

/-! ## Between the regions -/

/-- At the first region's exit its output array holds the reference's hidden features of the arguments. -/
theorem hidden_features (c : Dev nD) :
    (W2 m ρ c (Proc.devRef .tc main_v22) : S100000x64.Idx → EReal)
      = Cert.ReferenceIdeal.ReadP.val_main_v22 (F := Ideal) (a0 m c) (a1 m c) (a2 m c) (a3 m c) (a4 m c) := by
  refine ((W2_arr m ρ c 5).trans (Cert.KernelIdeal.Region0.array (V1 m ρ) c)).trans ?_
  rw [entry0_features, entry0_sums, entry0_wroot, entry0_wrel, entry0_bias]
  exact (Cert.ReferenceIdeal.RefValue.hidden_eq (a0 m c) (a1 m c) (a2 m c) (a3 m c) (a4 m c)).symm

/-- The edge sources the first stretch computed are still there, and are what the reference computes again. -/
theorem kept_sources (c : Dev nD) :
    W2 m ρ c (Proc.devRef .tc main_v1) = Cert.ReferenceIdeal.ReadP.val_main_v24 (F := Ideal) (a1 m c) := by
  refine (W2_of_ne m ρ c main_v1 (by decide)).trans ?_
  show StableHlo.after hostOps0 (W0 m ρ c) (Proc.devRef .tc main_v1) = _
  after_results
  simp only [Cert.ReferenceIdeal.ReadP.val_main_v24, Cert.ReferenceIdeal.ReadP.val_main_v23]
  rfl

/-- The edge targets likewise. -/
theorem kept_targets (c : Dev nD) :
    W2 m ρ c (Proc.devRef .tc main_v3) = Cert.ReferenceIdeal.ReadP.val_main_v26 (F := Ideal) (a1 m c) := by
  refine (W2_of_ne m ρ c main_v3 (by decide)).trans ?_
  show StableHlo.after hostOps0 (W0 m ρ c) (Proc.devRef .tc main_v3) = _
  after_results
  simp only [Cert.ReferenceIdeal.ReadP.val_main_v26, Cert.ReferenceIdeal.ReadP.val_main_v25]
  rfl

/-- No host operation of the first stretch and no window of the first region writes an argument. -/
theorem kept_arg5 (c : Dev nD) : W2 m ρ c (Proc.devRef .tc main_arg5) = a5 m c := by
  refine (W2_of_ne m ρ c main_arg5 (by decide)).trans ?_
  show StableHlo.after hostOps0 (W0 m ρ c) (Proc.devRef .tc main_arg5) = _
  after_results
theorem kept_arg6 (c : Dev nD) : W2 m ρ c (Proc.devRef .tc main_arg6) = a6 m c := by
  refine (W2_of_ne m ρ c main_arg6 (by decide)).trans ?_
  show StableHlo.after hostOps0 (W0 m ρ c) (Proc.devRef .tc main_arg6) = _
  after_results
theorem kept_arg7 (c : Dev nD) : W2 m ρ c (Proc.devRef .tc main_arg7) = a7 m c := by
  refine (W2_of_ne m ρ c main_arg7 (by decide)).trans ?_
  show StableHlo.after hostOps0 (W0 m ρ c) (Proc.devRef .tc main_arg7) = _
  after_results

/-! ## The second region's arrays -/

/-- The hidden features as the second region finds them. -/
theorem entry1_features (c : Dev nD) :
    (V3 m ρ c main_v23 : S100000x64.Idx → EReal)
      = Cert.ReferenceIdeal.ReadP.val_main_v22 (F := Ideal) (a0 m c) (a1 m c) (a2 m c) (a3 m c) (a4 m c) := by
  show StableHlo.after hostOps1 (W2 m ρ c) (Proc.devRef .tc main_v23) = _
  after_results
  simp only [truncf_ideal]
  exact hidden_features m ρ c

set_option maxHeartbeats 1000000 in
/-- The hidden features' neighbourhood sums as the second region finds them: the reference's stage. -/
theorem entry1_sums (c : Dev nD) :
    (V3 m ρ c main_v35 : S100000x64.Idx → EReal)
      = Cert.ReferenceIdeal.ReadP.val_main_v36 (F := Ideal) (a0 m c) (a1 m c) (a2 m c) (a3 m c) (a4 m c) := by
  show StableHlo.after hostOps1 (W2 m ρ c) (Proc.devRef .tc main_v35) = _
  after_results
  simp only [truncf_ideal, extf_ideal]
  rw [hidden_features m ρ c, kept_sources m ρ c, kept_targets m ρ c]
  simp only [Cert.ReferenceIdeal.ReadP.val_main_v36, Cert.ReferenceIdeal.ReadP.val_main_v35, Cert.ReferenceIdeal.ReadP.val_main_v34, Cert.ReferenceIdeal.ReadP.val_main_v33, Cert.ReferenceIdeal.ReadP.val_main_v32,
    Cert.ReferenceIdeal.ReadP.val_main_v31, Cert.ReferenceIdeal.ReadP.val_main_v30, Cert.ReferenceIdeal.ReadP.val_main_v29, Cert.ReferenceIdeal.ReadP.val_main_v28, Cert.ReferenceIdeal.ReadP.val_main_v27,
    Cert.ReferenceIdeal.ReadP.val_main_c_1, Cert.ReferenceIdeal.ReadP.val_main_c_2, Cert.ReferenceIdeal.ReadP.val_main_cst_3]
  rfl

/-- The second layer's weights on the node's own features, transposed. -/
theorem entry1_wroot (c : Dev nD) : (V3 m ρ c main_v37 : S64x16.Idx → EReal) = Cert.ReferenceIdeal.ReadP.val_main_v37 (F := Ideal) (a6 m c) := by
  show StableHlo.after hostOps1 (W2 m ρ c) (Proc.devRef .tc main_v37) = _
  after_results
  simp only [truncf_ideal]
  rw [kept_arg6 m ρ c]
  simp only [Cert.ReferenceIdeal.ReadP.val_main_v37]

/-- The second layer's weights on the neighbourhood sums, transposed. -/
theorem entry1_wrel (c : Dev nD) : (V3 m ρ c main_v39 : S64x16.Idx → EReal) = Cert.ReferenceIdeal.ReadP.val_main_v39 (F := Ideal) (a5 m c) := by
  show StableHlo.after hostOps1 (W2 m ρ c) (Proc.devRef .tc main_v39) = _
  after_results
  simp only [truncf_ideal]
  rw [kept_arg5 m ρ c]
  simp only [Cert.ReferenceIdeal.ReadP.val_main_v39]

/-- The second layer's bias row read at (0, q) is the bias's entry q. -/
theorem entry1_bias (c : Dev nD) :
    (fun j : (⟨1, ![16]⟩ : Shape).Idx => (V3 m ρ c main_v40 : S1x16.Idx → EReal) (ix2 0 (j 0))) = a7 m c := by
  have h : (V3 m ρ c main_v40 : S1x16.Idx → EReal) = shapeCast S1x16 (a7 m c) shapeCasts_S16_S1x16 := by
    show StableHlo.after hostOps1 (W2 m ρ c) (Proc.devRef .tc main_v40) = _
    after_results
    rw [kept_arg7 m ρ c]
    rfl
  funext j
  rw [h]
  exact (row_of_vector (a7 m c) shapeCasts_S16_S1x16 (j 0)).trans (congrArg (a7 m c) (eq_ix1 j).symm)

/-! ## The result -/

/-- At the last boundary the result buffer holds the reference's last stage of the eight arguments. -/
theorem result (c : Dev nD) :
    (W4 m ρ c (Proc.devRef .tc main_v41) : S100000x16.Idx → EReal)
      = Cert.ReferenceIdeal.ReadP.val_main_v45 (F := Ideal) (a0 m c) (a1 m c) (a2 m c) (a3 m c) (a4 m c) (a5 m c) (a6 m c) (a7 m c) := by
  refine ((W4_arr m ρ c 5).trans (Cert.KernelIdeal.Region1.array (V3 m ρ) c)).trans ?_
  rw [entry1_features, entry1_sums, entry1_wroot, entry1_wrel, entry1_bias]
  exact (Cert.ReferenceIdeal.RefValue.output_eq (a0 m c) (a1 m c) (a2 m c) (a3 m c) (a4 m c) (a5 m c) (a6 m c) (a7 m c)).symm

end Cert.KernelIdeal.KernelValue

end
-- ==== Proof.RefStages.lean ====
/-
  The reference program's 68 host operations, folded over the launch contents and read at the result buffer, are the
  last stage function of the eight arguments.

  The operations fall in three stretches. The first 28 are the first layer: the neighbourhood sums (gather, scatter-add),
  the two products, the bias and the clamp at zero, ending at the hidden features `main_v22`. The next 25 are the second
  layer's affine part, of the hidden features and four arguments, ending at `main_v44`. The last 15 are the row-wise
  logarithm of the softmax of that, ending at the result `main_v45`. Each stretch is read from ARBITRARY contents `W`:
  the first gives the hidden features' stage of `W` at the arguments and writes no argument a later stretch reads; the
  second, from contents that hold the hidden features' stage and those arguments, gives the affine part's stage; the
  third, from contents that hold the affine part's stage, gives the result's. A fold over stretches in a row is the
  folds composed, so the three facts chain. The operations of the two called functions move their values along the
  type equation of a typed reference and back; the two moves cancel.
-/
import proofs.«154605_j850403525401_1_alg».proof.Proof.RefRead

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The first layer: the 28 operations through the hidden features `main_v22` (the clamp at zero's three included). -/
abbrev opsLayer1 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 100000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S640000x1 ![0] bcast_S640000_S640000x1_0 : (⟨S640000, .i32⟩ : BufTy).Contents (Elt F) → (⟨S640000x1, .i32⟩ : BufTy).Contents (Elt F)),
    ternary main_v11 main_v12 main_v10 main_v13 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    unary main_arg3 main_v14 ((transpose S128x64 [1, 0] · transposes_S64x128_S128x64_1_0) : (⟨S64x128, .f32⟩ : BufTy).Contents (Elt F) → (⟨S128x64, .f32⟩ : BufTy).Contents (Elt F)),
    binary main_arg0 main_v14 main_v15 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg2 main_v16 ((transpose S128x64 [1, 0] · transposes_S64x128_S128x64_1_0) : (⟨S64x128, .f32⟩ : BufTy).Contents (Elt F) → (⟨S128x64, .f32⟩ : BufTy).Contents (Elt F)),
    binary main_v13 main_v16 main_v17 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    unary main_arg4 main_v19 (broadcastInDim S1x64 ![1] bcast_S64_S1x64_1 : (⟨S64, .f32⟩ : BufTy).Contents (Elt F) → (⟨S1x64, .f32⟩ : BufTy).Contents (Elt F)),
    unary main_v19 main_v20 (broadcastInDim S100000x64 ![0, 1] bcast_S1x64_S100000x64_0_1 : (⟨S1x64, .f32⟩ : BufTy).Contents (Elt F) → (⟨S100000x64, .f32⟩ : BufTy).Contents (Elt F)),
    binary main_v18 main_v20 main_v21 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v21) (TRef.of (T := ⟨S100000x64, .f32⟩) main_call0_v0) (TRef.of (T := ⟨S100000x64, .f32⟩) main_v22) maximumf ]

/-- The second layer's affine part: the 25 operations from `main_v23` through `main_v44`. -/
abbrev opsAffine2 : List (HloOp τ sig (Elt F)) :=
  [ unary main_arg1 main_v23 ((extractStridedSlice S1x640000 ![0, 0] · slices_S2x640000_S1x640000_0_0) : (⟨S2x640000, .i32⟩ : BufTy).Contents (Elt F) → (⟨S1x640000, .i32⟩ : BufTy).Contents (Elt F)),
    reshape main_v23 main_v24 rfl shapeCasts_S1x640000_S640000,
    unary main_arg1 main_v25 ((extractStridedSlice S1x640000 ![1, 0] · slices_S2x640000_S1x640000_1_0) : (⟨S2x640000, .i32⟩ : BufTy).Contents (Elt F) → (⟨S1x640000, .i32⟩ : BufTy).Contents (Elt F)),
    reshape main_v25 main_v26 rfl shapeCasts_S1x640000_S640000,
    nullary main_c_1 (constantI S_ 32 0#32),
    unary main_c_1 main_v27 (broadcastInDim S640000 ![] bcast_S_S640000 : (⟨S_, .i32⟩ : BufTy).Contents (Elt F) → (⟨S640000, .i32⟩ : BufTy).Contents (Elt F)),
    binary main_v24 main_v27 main_v28 (cmpi .slt : (⟨S640000, .i32⟩ : BufTy).Contents (Elt F) → (⟨S640000, .i32⟩ : BufTy).Contents (Elt F) → (⟨S640000, .i1⟩ : BufTy).Contents (Elt F)),
    nullary main_c_2 (constantI S_ 32 100000#32),
    unary main_c_2 main_v29 (broadcastInDim S640000 ![] bcast_S_S640000 : (⟨S_, .i32⟩ : BufTy).Contents (Elt F) → (⟨S640000, .i32⟩ : BufTy).Contents (Elt F)),
    binary main_v24 main_v29 main_v30 (addi : (⟨S640000, .i32⟩ : BufTy).Contents (Elt F) → (⟨S640000, .i32⟩ : BufTy).Contents (Elt F) → (⟨S640000, .i32⟩ : BufTy).Contents (Elt F)),
    ternary main_v28 main_v30 main_v24 main_v31 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v31 main_v32 (broadcastInDim S640000x1 ![0] bcast_S640000_S640000x1_0 : (⟨S640000, .i32⟩ : BufTy).Contents (Elt F) → (⟨S640000x1, .i32⟩ : BufTy).Contents (Elt F)),
    binary main_v22 main_v32 main_v33 ((fun x i => Host.gather gather_S100000x64_S640000x1_S640000x64_1_0_n_n_0_1_164 x i) : (⟨S100000x64, .f32⟩ : BufTy).Contents (Elt F) → (⟨S640000x1, .i32⟩ : BufTy).Contents (Elt F) → (⟨S640000x64, .f32⟩ : BufTy).Contents (Elt F)),
    nullary main_cst_3 (constant S_ .f32 0x00000000#32),
    unary main_cst_3 main_v34 (broadcastInDim S100000x64 ![] bcast_S_S100000x64 : (⟨S_, .f32⟩ : BufTy).Contents (Elt F) → (⟨S100000x64, .f32⟩ : BufTy).Contents (Elt F)),
    unary main_v26 main_v35 (broadcastInDim S640000x1 ![0] bcast_S640000_S640000x1_0 : (⟨S640000, .i32⟩ : BufTy).Contents (Elt F) → (⟨S640000x1, .i32⟩ : BufTy).Contents (Elt F)),
    ternary main_v34 main_v35 main_v33 main_v36 ((fun x i u => Host.scatterAdd scatter_S100000x64_S640000x1_S640000x64_1_0_0_1 x i u) : (⟨S100000x64, .f32⟩ : BufTy).Contents (Elt F) → (⟨S640000x1, .i32⟩ : BufTy).Contents (Elt F) → (⟨S640000x64, .f32⟩ : BufTy).Contents (Elt F) → (⟨S100000x64, .f32⟩ : BufTy).Contents (Elt F)),
    unary main_arg6 main_v37 ((transpose S64x16 [1, 0] · transposes_S16x64_S64x16_1_0) : (⟨S16x64, .f32⟩ : BufTy).Contents (Elt F) → (⟨S64x16, .f32⟩ : BufTy).Contents (Elt F)),
    binary main_v22 main_v37 main_v38 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg5 main_v39 ((transpose S64x16 [1, 0] · transposes_S16x64_S64x16_1_0) : (⟨S16x64, .f32⟩ : BufTy).Contents (Elt F) → (⟨S64x16, .f32⟩ : BufTy).Contents (Elt F)),
    binary main_v36 main_v39 main_v40 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v38 main_v40 main_v41 (addf : (⟨S100000x16, .f32⟩ : BufTy).Contents (Elt F) → (⟨S100000x16, .f32⟩ : BufTy).Contents (Elt F) → (⟨S100000x16, .f32⟩ : BufTy).Contents (Elt F)),
    unary main_arg7 main_v42 (broadcastInDim S1x16 ![1] bcast_S16_S1x16_1 : (⟨S16, .f32⟩ : BufTy).Contents (Elt F) → (⟨S1x16, .f32⟩ : BufTy).Contents (Elt F)),
    unary main_v42 main_v43 (broadcastInDim S100000x16 ![0, 1] bcast_S1x16_S100000x16_0_1 : (⟨S1x16, .f32⟩ : BufTy).Contents (Elt F) → (⟨S100000x16, .f32⟩ : BufTy).Contents (Elt F)),
    binary main_v41 main_v43 main_v44 (addf : (⟨S100000x16, .f32⟩ : BufTy).Contents (Elt F) → (⟨S100000x16, .f32⟩ : BufTy).Contents (Elt F) → (⟨S100000x16, .f32⟩ : BufTy).Contents (Elt F)) ]

/-- The row-wise logarithm of the softmax: the last 15 operations, through the result `main_v45`. -/
abbrev opsLogSoftmax : List (HloOp τ sig (Elt F)) :=
  [ TRef.nullary (TRef.of (T := ⟨S_, .f32⟩) main_call1_cst) (constant S_ .f32 0xFF800000#32),
    TRef.binary (TRef.of (T := ⟨S100000x16, .f32⟩) main_v44) (TRef.of (T := ⟨S_, .f32⟩) main_call1_cst) (TRef.of (T := ⟨S100000, .f32⟩) main_call1_v0) (fun x v => Host.reduce FloatOps.maximumf x v reducesTo_S100000x16_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x16, .f32⟩) main_call1_v4) (broadcastInDim S100000x16 ![0, 1] bcast_S100000x1_S100000x16_0_1),
    TRef.binary (TRef.of (T := ⟨S100000x16, .f32⟩) main_v44) (TRef.of (T := ⟨S100000x16, .f32⟩) main_call1_v4) (TRef.of (T := ⟨S100000x16, .f32⟩) main_call1_v5) subf,
    TRef.unary (TRef.of (T := ⟨S100000x16, .f32⟩) main_call1_v5) (TRef.of (T := ⟨S100000x16, .f32⟩) main_call1_v6) Host.exp,
    TRef.nullary (TRef.of (T := ⟨S_, .f32⟩) main_call1_cst_1) (constant S_ .f32 0x00000000#32),
    TRef.binary (TRef.of (T := ⟨S100000x16, .f32⟩) main_call1_v6) (TRef.of (T := ⟨S_, .f32⟩) main_call1_cst_1) (TRef.of (T := ⟨S100000, .f32⟩) main_call1_v7) (fun x v => Host.reduceAdd x v reducesTo_S100000x16_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x16, .f32⟩) main_call1_v10) (broadcastInDim S100000x16 ![0, 1] bcast_S100000x1_S100000x16_0_1),
    TRef.binary (TRef.of (T := ⟨S100000x16, .f32⟩) main_call1_v5) (TRef.of (T := ⟨S100000x16, .f32⟩) main_call1_v10) (TRef.of (T := ⟨S100000x16, .f32⟩) main_v45) subf ]

set_option maxRecDepth 8192 in
/-- The program's operations are the three stretches in a row. -/
theorem ops_split : Cert.ReferenceIdeal.RunP.ops (F := F) = opsLayer1 ++ (opsAffine2 ++ opsLogSoftmax) := rfl

/-! ## The transports of a typed reference cancel -/

/-- Contents carried to a typed reference's buffer type and back are the contents. -/
theorem ofBuf_toBuf {T : BufTy} (x : TRef sig T) (v : T.Contents (Elt F)) : x.ofBuf (x.toBuf v) = v := by
  simp only [TRef.ofBuf, TRef.toBuf, cast_cast, cast_eq]

/-! ## The first stretch, from any contents -/

/-- After the first stretch the hidden features are their stage of the five arguments the first layer reads. -/
theorem layer1_hidden (W : Valuation τ sig (Elt F)) :
    after (opsLayer1 (F := F)) W (Proc.devRef .tc main_v22)
      = val_main_v22 (F := F) (W (Proc.devRef .tc main_arg0)) (W (Proc.devRef .tc main_arg1)) (W (Proc.devRef .tc main_arg2))
          (W (Proc.devRef .tc main_arg3)) (W (Proc.devRef .tc main_arg4)) := by
  after_results_simp
  simp only [ofBuf_toBuf]
  rfl

/-- The first stretch writes none of the arguments the later stretches read. -/
theorem layer1_keeps_arg1 (W : Valuation τ sig (Elt F)) : after (opsLayer1 (F := F)) W (Proc.devRef .tc main_arg1) = W (Proc.devRef .tc main_arg1) := by
  after_results_simp
theorem layer1_keeps_arg5 (W : Valuation τ sig (Elt F)) : after (opsLayer1 (F := F)) W (Proc.devRef .tc main_arg5) = W (Proc.devRef .tc main_arg5) := by
  after_results_simp
theorem layer1_keeps_arg6 (W : Valuation τ sig (Elt F)) : after (opsLayer1 (F := F)) W (Proc.devRef .tc main_arg6) = W (Proc.devRef .tc main_arg6) := by
  after_results_simp
theorem layer1_keeps_arg7 (W : Valuation τ sig (Elt F)) : after (opsLayer1 (F := F)) W (Proc.devRef .tc main_arg7) = W (Proc.devRef .tc main_arg7) := by
  after_results_simp

/-! ## The second stretch, from any contents that hold the hidden features -/

/-- From contents `W` that hold the hidden features' stage at `main_v22` and the arguments `x1`, `x5`, `x6`, `x7` at
    theirs, the second stretch leaves the affine part's stage at `main_v44`. -/
theorem affine2_value (W : Valuation τ sig (Elt F))
    (x0 : (⟨S100000x128, .f32⟩ : BufTy).Contents (Elt F)) (x1 : (⟨S2x640000, .i32⟩ : BufTy).Contents (Elt F))
    (x2 x3 : (⟨S64x128, .f32⟩ : BufTy).Contents (Elt F)) (x4 : (⟨S64, .f32⟩ : BufTy).Contents (Elt F))
    (x5 x6 : (⟨S16x64, .f32⟩ : BufTy).Contents (Elt F)) (x7 : (⟨S16, .f32⟩ : BufTy).Contents (Elt F))
    (h22 : W (Proc.devRef .tc main_v22) = val_main_v22 (F := F) x0 x1 x2 x3 x4)
    (h1 : W (Proc.devRef .tc main_arg1) = x1) (h5 : W (Proc.devRef .tc main_arg5) = x5)
    (h6 : W (Proc.devRef .tc main_arg6) = x6) (h7 : W (Proc.devRef .tc main_arg7) = x7) :
    after (opsAffine2 (F := F)) W (Proc.devRef .tc main_v44) = val_main_v44 (F := F) x0 x1 x2 x3 x4 x5 x6 x7 := by
  after_results_simp
  rw [h22, h1, h5, h6, h7]
  rfl

/-! ## The last stretch, from any contents that hold the affine part -/

/-- From contents `W` that hold the affine part's stage at `main_v44`, the last stretch leaves the result's stage at
    `main_v45`. -/
theorem logSoftmax_result (W : Valuation τ sig (Elt F))
    (x0 : (⟨S100000x128, .f32⟩ : BufTy).Contents (Elt F)) (x1 : (⟨S2x640000, .i32⟩ : BufTy).Contents (Elt F))
    (x2 x3 : (⟨S64x128, .f32⟩ : BufTy).Contents (Elt F)) (x4 : (⟨S64, .f32⟩ : BufTy).Contents (Elt F))
    (x5 x6 : (⟨S16x64, .f32⟩ : BufTy).Contents (Elt F)) (x7 : (⟨S16, .f32⟩ : BufTy).Contents (Elt F))
    (h44 : W (Proc.devRef .tc main_v44) = val_main_v44 (F := F) x0 x1 x2 x3 x4 x5 x6 x7) :
    after (opsLogSoftmax (F := F)) W (Proc.devRef .tc main_v45) = val_main_v45 (F := F) x0 x1 x2 x3 x4 x5 x6 x7 := by
  after_results_simp
  simp only [ofBuf_toBuf]
  rw [h44]
  rfl

/-! ## The whole fold -/

/-- THE RESULT: the fold of the 68 operations over the launch contents, read at the result buffer, is the last stage
    of the eight arguments: the three stretches in a row, each handing the next the one buffer and the arguments it reads. -/
theorem result_eq (m : (ℓ : Loc nD τ sig) → Buf (Elt F) ℓ) (c : Dev nD) :
    after (Cert.ReferenceIdeal.RunP.ops (F := F)) (launchContents m c) (Proc.devRef .tc main_v45)
      = Cert.ReferenceIdeal.ReadP.val_main_v45 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_split, StableHlo.after_append, StableHlo.after_append]
  refine logSoftmax_result _ _ _ _ _ _ _ _ _ ?_
  refine affine2_value _ _ _ _ _ _ _ _ _ ?_ ?_ ?_ ?_ ?_
  · exact layer1_hidden (launchContents m c)
  · exact layer1_keeps_arg1 (launchContents m c)
  · exact layer1_keeps_arg5 (launchContents m c)
  · exact layer1_keeps_arg6 (launchContents m c)
  · exact layer1_keeps_arg7 (launchContents m c)

end Cert.ReferenceIdeal.Stages

end
-- ==== Proof.lean ====
/-
  A two-layer graph convolution against its jnp reference, equal over the extended reals.

  Each layer takes the node features x, sums over every edge the features of its source into its target (the
  neighbourhood sums a: a gather of rows followed by a scatter-add from zero), and forms x · W_rootᵀ + a · W_relᵀ + b;
  the first layer clamps the result from below at zero, the second takes the row-wise logarithm of the softmax.
  The kernel's program does the gather and the scatter-add on the host exactly as the reference does, and gives the
  affine part and the activation of each layer to a region of 20 grid points, each working on a block of 5000 rows:
  the two products into zero accumulators are the plain sums over the contracted axis, the row maximum and the row sum
  of the softmax are the fold and the sum over the row's 16 entries, and the 20 row blocks tile the 100000 rows. The
  reference's general dots are the same sums, its reduce with maximum the same fold (it takes one more maximum with
  minus infinity, which changes nothing), its sum the same sum from a zero initial value. Only commutativity and
  associativity are used, so the arguments need not be finite and the precondition is never opened. Every change of
  float format is the identity at the extended reals, and the ideal pass rewrote nothing.

  The modules: Spec (the two layers as functions of whole arrays), Region0 and Region1 (each region's output array is
  the layer of the arrays the region finds), KernelValue (those arrays and the result buffer as the reference's
  stages of the arguments), RefValue (the reference's stages are the two layers), RefStages (the reference's fold of
  operations is its last stage), and the two runs (KernelRun, RefRun).
-/
import proofs.«154605_j850403525401_1_alg».proof.Defs
import proofs.«154605_j850403525401_1_alg».proof.Proof.Gen.Kernel
import proofs.«154605_j850403525401_1_alg».proof.Proof.Gen.Kernel.Skeleton
import proofs.«154605_j850403525401_1_alg».proof.Proof.Gen.Kernel.Launch
import proofs.«154605_j850403525401_1_alg».proof.Proof.Gen.Kernel.Points
import proofs.«154605_j850403525401_1_alg».proof.Proof.Gen.Kernel.Frame
import proofs.«154605_j850403525401_1_alg».proof.Proof.Gen.KernelIdeal
import proofs.«154605_j850403525401_1_alg».proof.Proof.Gen.KernelIdeal.Skeleton
import proofs.«154605_j850403525401_1_alg».proof.Proof.Gen.KernelIdeal.Launch
import proofs.«154605_j850403525401_1_alg».proof.Proof.Gen.KernelIdeal.Points
import proofs.«154605_j850403525401_1_alg».proof.Proof.Gen.KernelIdeal.Frame
import proofs.«154605_j850403525401_1_alg».proof.Proof.Gen.ReferenceIdeal
import proofs.«154605_j850403525401_1_alg».proof.Proof.Gen.Pre_finite_inputs
import proofs.«154605_j850403525401_1_alg».proof.Proof.KernelRun
import proofs.«154605_j850403525401_1_alg».proof.Proof.KernelValue
import proofs.«154605_j850403525401_1_alg».proof.Proof.RefRun
import proofs.«154605_j850403525401_1_alg».proof.Proof.RefStages
import Idealize.ShloMosaic.Adequacy
import Idealize.ShloMosaic.Init

noncomputable section

namespace Cert.Proof

open Idealize.ShloMosaic Idealize.SL.Sem

/-- The kernel's program runs and leaves its arguments as launched. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote no operation of the kernel. -/
theorem preserves : Cert.preserves_Kernel_KernelIdeal := trivial

/-- From memories that agree on the arguments both programs end with the reference's last stage of those arguments in
    their result buffers: the kernel's by the two regions' arrays, the reference's by its fold of operations. -/
theorem algebraic : Cert.algebraic_KernelIdeal_ReferenceIdeal := by
  intro m ρ m' ρ' _ hagree
  refine ⟨fun c => Cert.ReferenceIdeal.ReadP.val_main_v45 (F := Ideal) (Cert.KernelIdeal.KernelValue.a0 m c) (Cert.KernelIdeal.KernelValue.a1 m c) (Cert.KernelIdeal.KernelValue.a2 m c)
    (Cert.KernelIdeal.KernelValue.a3 m c) (Cert.KernelIdeal.KernelValue.a4 m c) (Cert.KernelIdeal.KernelValue.a5 m c) (Cert.KernelIdeal.KernelValue.a6 m c) (Cert.KernelIdeal.KernelValue.a7 m c), ?_, ?_⟩
  · exact (θ_run Cert.KernelIdeal.defs _ _).mono
      (fun _ h c => ⟨(h c).1.trans (Cert.KernelIdeal.KernelValue.result m ρ c), (h c).2⟩) (Cert.KernelIdeal.RunV.run (F := Ideal) m ρ)
  · refine (θ_run Cert.ReferenceIdeal.defs _ _).mono (fun _ h c => ⟨(h c).1.trans ?_, (h c).2⟩)
      (Cert.ReferenceIdeal.RunP.run (F := Ideal) m' ρ')
    obtain ⟨e0, e1, e2, e3, e4, e5, e6, e7⟩ := hagree c
    rw [Cert.ReferenceIdeal.Stages.result_eq m' c, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
